-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x512x512 : Shape := ⟨3, ![4, 512, 512]⟩
abbrev S4x512 : Shape := ⟨2, ![4, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg4 : FVec F S4x512 .f32) (main_arg5 : FVec F S4x512x512 .f32) (main_arg6 : FVec F S4x512 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  main_v33

def fn {F : FTy → Type} [FloatOps F] (main_arg0 : FVec F S32768x512 .f32) (main_arg1 : FVec F S32768x512 .f32) (main_arg2 : FVec F S32768x512 .f32) (main_arg3 : FVec F S4x512x512 .f32) (main_arg4 : FVec F S4x512 .f32) (main_arg5 : FVec F S4x512x512 .f32) (main_arg6 : FVec F S4x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S4x512x512 .f32 := Host.absf main_arg3
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg4 main_arg5 main_arg6 main_v13 main_v16
-- ==== Kernel.lean ====
abbrev S32768x512 : Shape := ⟨2, ![32768, 512]⟩
abbrev S4x512x512 : Shape := ⟨3, ![4, 512, 512]⟩
abbrev S4x512 : Shape := ⟨2, ![4, 512]⟩
abbrev S512x4x512 : Shape := ⟨3, ![512, 4, 512]⟩
abbrev S512x2048 : Shape := ⟨2, ![512, 2048]⟩
abbrev S2048 : Shape := ⟨1, ![2048]⟩
abbrev S512x512 : Shape := ⟨2, ![512, 512]⟩
abbrev S1x2048 : Shape := ⟨2, ![1, 2048]⟩

abbrev nBuf : Space → Nat
  | .hbm => 17
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S512x4x512, .f32⟩
  | .hbm, ⟨8, _⟩ => ⟨S512x2048, .f32⟩
  | .hbm, ⟨9, _⟩ => ⟨S512x2048, .bf16⟩
  | .hbm, ⟨10, _⟩ => ⟨S512x4x512, .f32⟩
  | .hbm, ⟨11, _⟩ => ⟨S512x2048, .f32⟩
  | .hbm, ⟨12, _⟩ => ⟨S512x2048, .bf16⟩
  | .hbm, ⟨13, _⟩ => ⟨S2048, .f32⟩
  | .hbm, ⟨14, _⟩ => ⟨S2048, .f32⟩
  | .hbm, ⟨15, _⟩ => ⟨S32768x512, .f32⟩
  | .hbm, ⟨16, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S2048, .f32⟩
  | .local _ .vmem, ⟨9, _⟩ => ⟨S2048, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x512x512_S512x4x512_2_0_1 : S4x512x512.Transposes [2, 0, 1] S512x4x512
  shapeCasts_S512x4x512_S512x2048 : S512x4x512.ShapeCasts S512x2048
  bitsLt_bf16_f32 : FTy.bits .bf16 < FTy.bits .f32
  shapeCasts_S4x512_S2048 : S4x512.ShapeCasts S2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S32768x512.size a
  hwx0_7 : ∀ i : grid0.Coords, EltTy.bits .f32 = 32 ∨ (Rect.block (s := S32768x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x512x512 : Shape := ⟨3, ![4, 512, 512]⟩
abbrev S4x512 : Shape := ⟨2, ![4, 512]⟩
abbrev S4x512x32768 : Shape := ⟨3, ![4, 512, 32768]⟩
abbrev S4x32768x512 : Shape := ⟨3, ![4, 32768, 512]⟩
abbrev S4x1x512 : Shape := ⟨3, ![4, 1, 512]⟩
abbrev S1x32768x512 : Shape := ⟨3, ![1, 32768, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S4x512x32768, .f32⟩
  | .hbm, ⟨8, _⟩ => ⟨S4x32768x512, .f32⟩
  | .hbm, ⟨9, _⟩ => ⟨S4x1x512, .f32⟩
  | .hbm, ⟨10, _⟩ => ⟨S4x32768x512, .f32⟩
  | .hbm, ⟨11, _⟩ => ⟨S4x32768x512, .f32⟩
  | .hbm, ⟨12, _⟩ => ⟨S4x512x32768, .f32⟩
  | .hbm, ⟨13, _⟩ => ⟨S4x32768x512, .f32⟩
  | .hbm, ⟨14, _⟩ => ⟨S4x32768x512, .f32⟩
  | .hbm, ⟨15, _⟩ => ⟨S4x1x512, .f32⟩
  | .hbm, ⟨16, _⟩ => ⟨S4x32768x512, .f32⟩
  | .hbm, ⟨17, _⟩ => ⟨S4x32768x512, .f32⟩
  | .hbm, ⟨18, _⟩ => ⟨S1x32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S1x32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S1x32768x512, .f32⟩
  | .hbm, ⟨39, _⟩ => ⟨S32768x512, .f32⟩
  | .hbm, ⟨40, _⟩ => ⟨S32768x512, .f32⟩
  | .hbm, ⟨41, _⟩ => ⟨S1x32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768x512, .f32⟩
  | .hbm, ⟨47, _⟩ => ⟨S32768x512, .f32⟩
  | .hbm, ⟨48, _⟩ => ⟨S_, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x512x32768_S4x32768x512_0_2_1 : S4x512x32768.Transposes [0, 2, 1] S4x32768x512
  bcast_S4x512_S4x1x512_0_2 : S4x512.BroadcastsInDim S4x1x512 (![0, 2] : Fin 2 → Fin S4x1x512.rank)
  bcast_S4x1x512_S4x32768x512_0_1_2 : S4x1x512.BroadcastsInDim S4x32768x512 (![0, 1, 2] : Fin 3 → Fin S4x32768x512.rank)
  slices_S4x32768x512_S1x32768x512_0_0_0 : S4x32768x512.Slices ![0, 0, 0] S1x32768x512
  shapeCasts_S1x32768x512_S32768x512 : S1x32768x512.ShapeCasts S32768x512
  bcast_S_S32768x512 : S_.BroadcastsInDim S32768x512 (![] : Fin 0 → Fin S32768x512.rank)
  slices_S4x32768x512_S1x32768x512_1_0_0 : S4x32768x512.Slices ![1, 0, 0] S1x32768x512
  slices_S4x32768x512_S1x32768x512_2_0_0 : S4x32768x512.Slices ![2, 0, 0] S1x32768x512
  slices_S4x32768x512_S1x32768x512_3_0_0 : S4x32768x512.Slices ![3, 0, 0] S1x32768x512
  dot_S4x512x512_S32768x512_S4x512x32768_2_1_01_0_n_n_wf : DotDims.WF S4x512x512 S32768x512 S4x512x32768 [2] [1] [0, 1] [0] [] []

variable [Facts₀]

def dot_S4x512x512_S32768x512_S4x512x32768_2_1_01_0_n_n : DotDims S4x512x512 S32768x512 S4x512x32768 where
  lhsContracting := [2]
  rhsContracting := [1]
  lhsNonContracting := [0, 1]
  rhsNonContracting := [0]
  lhsBatch := []
  rhsBatch := []
  wf := dot_S4x512x512_S32768x512_S4x512x32768_2_1_01_0_n_n_wf

class Facts : Prop extends Facts₀ where

variable [Facts]
-- ==== Proof.LstmCell.lean ====
/-
  One step of an LSTM cell, written coordinate by coordinate over the extended reals.

  For batch row `b`, hidden unit `j` and gate `g` (input, forget, cell, output = 0, 1, 2, 3) the gate's
  pre-activation is
      z g b j = Σₖ Wx[g, j, k] · x[b, k] + bx[g, j] + Σₖ Wh[g, j, k] · h[b, k] + bh[g, j],
  the new cell state is  c' = σ(z 0) · tanh(z 2) + σ(z 1) · c  and the new hidden state is
  h' = σ(z 3) · tanh(c'),  with σ the logistic function 1 / (1 + e^(-z)).

  Two facts join a fused evaluation to this one. A fused evaluation multiplies the activations on the
  left of the weights and adds both projections before either bias:
      (Σₖ x[b, k] · Wx[g, j, k] + Σₖ h[b, k] · Wh[g, j, k]) + bx[g, j] + bh[g, j];
  on the extended reals multiplication and addition are commutative and addition is associative (no
  cancellation and no distribution is used), so the two sums agree whatever the entries are, infinite
  ones included. And the logistic function spelled with the float word of 1.0 is the logistic function,
  because that word denotes the real number 1.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- Activations and states: 32768 batch rows of 512 features. -/
abbrev SRows : Shape := ⟨2, ![32768, 512]⟩
/-- Stacked gate weights: gate, hidden unit, input feature. -/
abbrev SGateW : Shape := ⟨3, ![4, 512, 512]⟩
/-- Stacked gate biases: gate, hidden unit. -/
abbrev SGateB : Shape := ⟨2, ![4, 512]⟩

/-- The pre-activation of gate `g` for batch row `b` and hidden unit `j`: the input projection plus its
    bias, plus the recurrent projection, plus its bias, in that order. -/
def gatePre (x h : FVec Ideal SRows .f32) (Wx Wh : FVec Ideal SGateW .f32) (bx bh : FVec Ideal SGateB .f32)
    (g : Fin 4) (b : Fin 32768) (j : Fin 512) : EReal :=
  (∑ k : Fin 512, Wx (ix3 g j k) * x (ix2 b k)) + bx (ix2 g j)
    + (∑ k : Fin 512, Wh (ix3 g j k) * h (ix2 b k)) + bh (ix2 g j)

/-- The fused evaluation — activations on the left, both projections summed before either bias — is the
    same extended real: commutativity of the product inside each sum, then one exchange of two summands. -/
theorem gatePre_fused (x h : FVec Ideal SRows .f32) (Wx Wh : FVec Ideal SGateW .f32) (bx bh : FVec Ideal SGateB .f32)
    (g : Fin 4) (b : Fin 32768) (j : Fin 512) :
    (∑ k : Fin 512, x (ix2 b k) * Wx (ix3 g j k)) + (∑ k : Fin 512, h (ix2 b k) * Wh (ix3 g j k))
        + bx (ix2 g j) + bh (ix2 g j)
      = gatePre x h Wx Wh bx bh g b j := by
  unfold gatePre
  have ex : (∑ k : Fin 512, x (ix2 b k) * Wx (ix3 g j k)) = ∑ k : Fin 512, Wx (ix3 g j k) * x (ix2 b k) :=
    Finset.sum_congr rfl fun k _ => mul_comm _ _
  have eh : (∑ k : Fin 512, h (ix2 b k) * Wh (ix3 g j k)) = ∑ k : Fin 512, Wh (ix3 g j k) * h (ix2 b k) :=
    Finset.sum_congr rfl fun k _ => mul_comm _ _
  rw [ex, eh]
  exact congrArg (· + bh (ix2 g j)) (add_right_comm _ _ _)

/-- The new cell state: the input gate times the candidate, plus the forget gate times the old state. -/
def cellNext (x h c : FVec Ideal SRows .f32) (Wx Wh : FVec Ideal SGateW .f32) (bx bh : FVec Ideal SGateB .f32) :
    FVec Ideal SRows .f32 := fun i =>
  Ideal.logistic (gatePre x h Wx Wh bx bh 0 (i 0) (i 1)) * Ideal.tanh (gatePre x h Wx Wh bx bh 2 (i 0) (i 1))
    + Ideal.logistic (gatePre x h Wx Wh bx bh 1 (i 0) (i 1)) * c i

/-- The new hidden state: the output gate times the squashed new cell state. -/
def hiddenNext (x h c : FVec Ideal SRows .f32) (Wx Wh : FVec Ideal SGateW .f32) (bx bh : FVec Ideal SGateB .f32) :
    FVec Ideal SRows .f32 := fun i =>
  Ideal.logistic (gatePre x h Wx Wh bx bh 3 (i 0) (i 1)) * Ideal.tanh (cellNext x h c Wx Wh bx bh i)

/-- The float word of 1.0 denotes the real number 1. -/
theorem ofBits_one_f32 : Ideal.ofBits .f32 0x3F800000#32 = 1 := by
  simp [Ideal.ofBits, Ideal.ieee, -EReal.coe_mul]; norm_num

/-- The logistic function spelled out with that word, 1.0 / (1.0 + e^(-z)), is the logistic function. -/
theorem logistic_spelled (z : EReal) :
    Ideal.div (Ideal.ofBits .f32 0x3F800000#32) (Ideal.ofBits .f32 0x3F800000#32 + Ideal.exp (-z)) = Ideal.logistic z := by
  rw [ofBits_one_f32]; rfl

end Cert.LstmCell

end
-- ==== Proof.RefCell.lean ====
/-
  The reference program computes the LSTM cell of `LstmCell`.

  The reference forms all four gates' pre-activations at once as a [4, 32768, 512] array: two einsums (each a
  contraction of the stacked weights with the activations over the feature axis, transposed so that the batch
  axis comes second) and two biases broadcast along the batch axis, added in the order projection, bias,
  projection, bias. Read at gate `g`, row `b`, unit `j` that entry is `gatePre … g b j` as written. Each gate
  is then the slice `[g : g+1]` of that array with its unit axis dropped — the entry at `(g, b, j)` again —
  and passes through the logistic function (spelled 1 / (1 + e^(-z)) with the float word of 1.0) or through
  tanh, and the two results are the products and the sum the specification writes.
-/
import proofs.«118748_j9320079033013_1_alg».proof.Proof.Gen.ReferenceIdeal.Read
import proofs.«118748_j9320079033013_1_alg».proof.Proof.LstmCell

noncomputable section

namespace Cert.RefCell

open Cert.ReferenceIdeal Cert.ReferenceIdeal.Read Cert.LstmCell
open Idealize.ShloMosaic Idealize.ShloMosaic.ValueIdx

variable (x h c : FVec Ideal S32768x512 .f32) (Wx Wh : FVec Ideal S4x512x512 .f32) (bx bh : FVec Ideal S4x512 .f32)

/-- The pre-activation array at gate `g`, row `b`, unit `j`: the transposes put the contraction's row index
    back at the batch axis, the broadcasts ignore the batch axis, and the four summands are the
    specification's in its own order. -/
theorem pre_apply (g : Fin 4) (b : Fin 32768) (j : Fin 512) :
    val_main_v10 (F := Ideal) x h Wx bx Wh bh (ix3 g b j) = gatePre x h Wx Wh bx bh g b j := by
  rw [val_main_v10_apply, val_main_v7_apply, val_main_v4_apply, val_main_v1_apply, val_main_v0_apply,
    val_main_v3_apply, val_main_v2_apply, val_main_v6_apply, val_main_v5_apply, val_main_v9_apply, val_main_v8_apply]
  have wl : ∀ k : Fin 512, lidx_main_v0 (idx_main_v1 (ix3 g b j)) k = ix3 g j k := fun k =>
    funext fun a => Fin.ext (by match a with | ⟨0, _⟩ => rfl | ⟨1, _⟩ => rfl | ⟨2, _⟩ => rfl)
  have wr : ∀ k : Fin 512, ridx_main_v0 (idx_main_v1 (ix3 g b j)) k = ix2 b k := fun k =>
    funext fun a => Fin.ext (by match a with | ⟨0, _⟩ => rfl | ⟨1, _⟩ => rfl)
  have ul : ∀ k : Fin 512, lidx_main_v5 (idx_main_v6 (ix3 g b j)) k = ix3 g j k := fun k =>
    funext fun a => Fin.ext (by match a with | ⟨0, _⟩ => rfl | ⟨1, _⟩ => rfl | ⟨2, _⟩ => rfl)
  have ur : ∀ k : Fin 512, ridx_main_v5 (idx_main_v6 (ix3 g b j)) k = ix2 b k := fun k =>
    funext fun a => Fin.ext (by match a with | ⟨0, _⟩ => rfl | ⟨1, _⟩ => rfl)
  have bb : idx_main_v2 (idx_main_v3 (ix3 g b j)) = ix2 g j :=
    funext fun a => Fin.ext (by match a with | ⟨0, _⟩ => rfl | ⟨1, _⟩ => rfl)
  have bb' : idx_main_v8 (idx_main_v9 (ix3 g b j)) = ix2 g j :=
    funext fun a => Fin.ext (by match a with | ⟨0, _⟩ => rfl | ⟨1, _⟩ => rfl)
  simp only [wl, wr, ul, ur, bb, bb']
  rfl

/-- Dropping the unit axis of the slice `[g : g+1]` reads the pre-activation array at `(g, row, unit)`:
    the reshape's row-major arithmetic (`(r·512 + u) / 512 = r`, `(r·512 + u) % 512 = u`) undone. -/
theorem slice0 (i : S32768x512.Idx) : idx_main_v11 (idx_main_v12 i) = ix3 (n0 := 4) (n1 := 32768) (n2 := 512) 0 (i 0) (i 1) := by
  have h0 : (i 0).val < 32768 := (i 0).isLt
  have h1 : (i 1).val < 512 := (i 1).isLt
  funext a; apply Fin.ext
  match a with
  | ⟨0, _⟩ => rfl
  | ⟨1, _⟩ => show ((i 0).val * 512 + (i 1).val) / 512 % 32768 = (i 0).val; omega
  | ⟨2, _⟩ => show ((i 0).val * 512 + (i 1).val) % 512 = (i 1).val; omega

theorem slice1 (i : S32768x512.Idx) : idx_main_v19 (idx_main_v20 i) = ix3 (n0 := 4) (n1 := 32768) (n2 := 512) 1 (i 0) (i 1) := by
  have h0 : (i 0).val < 32768 := (i 0).isLt
  have h1 : (i 1).val < 512 := (i 1).isLt
  funext a; apply Fin.ext
  match a with
  | ⟨0, _⟩ => rfl
  | ⟨1, _⟩ => show ((i 0).val * 512 + (i 1).val) / 512 % 32768 = (i 0).val; omega
  | ⟨2, _⟩ => show ((i 0).val * 512 + (i 1).val) % 512 = (i 1).val; omega

theorem slice2 (i : S32768x512.Idx) : idx_main_v27 (idx_main_v28 i) = ix3 (n0 := 4) (n1 := 32768) (n2 := 512) 2 (i 0) (i 1) := by
  have h0 : (i 0).val < 32768 := (i 0).isLt
  have h1 : (i 1).val < 512 := (i 1).isLt
  funext a; apply Fin.ext
  match a with
  | ⟨0, _⟩ => rfl
  | ⟨1, _⟩ => show ((i 0).val * 512 + (i 1).val) / 512 % 32768 = (i 0).val; omega
  | ⟨2, _⟩ => show ((i 0).val * 512 + (i 1).val) % 512 = (i 1).val; omega

theorem slice3 (i : S32768x512.Idx) : idx_main_v30 (idx_main_v31 i) = ix3 (n0 := 4) (n1 := 32768) (n2 := 512) 3 (i 0) (i 1) := by
  have h0 : (i 0).val < 32768 := (i 0).isLt
  have h1 : (i 1).val < 512 := (i 1).isLt
  funext a; apply Fin.ext
  match a with
  | ⟨0, _⟩ => rfl
  | ⟨1, _⟩ => show ((i 0).val * 512 + (i 1).val) / 512 % 32768 = (i 0).val; omega
  | ⟨2, _⟩ => show ((i 0).val * 512 + (i 1).val) % 512 = (i 1).val; omega

/-- The input gate: the logistic function of pre-activation 0. -/
theorem inputGate (i : S32768x512.Idx) :
    val_main_v18 (F := Ideal) x h Wx bx Wh bh i = Ideal.logistic (gatePre x h Wx Wh bx bh 0 (i 0) (i 1)) := by
  rw [val_main_v18_apply, val_main_v17_apply, val_main_cst_0_apply, val_main_v16_apply, val_main_v15_apply,
    val_main_cst_apply, val_main_v14_apply, val_main_v13_apply, val_main_v12_apply, val_main_v11_apply, slice0]
  exact (congrArg (fun z : EReal => Ideal.div (Ideal.ofBits .f32 0x3F800000#32) (Ideal.ofBits .f32 0x3F800000#32 + Ideal.exp (-z)))
    (pre_apply x h Wx Wh bx bh 0 (i 0) (i 1))).trans (logistic_spelled _)

/-- The forget gate: the logistic function of pre-activation 1. -/
theorem forgetGate (i : S32768x512.Idx) :
    val_main_v26 (F := Ideal) x h Wx bx Wh bh i = Ideal.logistic (gatePre x h Wx Wh bx bh 1 (i 0) (i 1)) := by
  rw [val_main_v26_apply, val_main_v25_apply, val_main_cst_2_apply, val_main_v24_apply, val_main_v23_apply,
    val_main_cst_1_apply, val_main_v22_apply, val_main_v21_apply, val_main_v20_apply, val_main_v19_apply, slice1]
  exact (congrArg (fun z : EReal => Ideal.div (Ideal.ofBits .f32 0x3F800000#32) (Ideal.ofBits .f32 0x3F800000#32 + Ideal.exp (-z)))
    (pre_apply x h Wx Wh bx bh 1 (i 0) (i 1))).trans (logistic_spelled _)

/-- The candidate: tanh of pre-activation 2. -/
theorem candidate (i : S32768x512.Idx) :
    val_main_v29 (F := Ideal) x h Wx bx Wh bh i = Ideal.tanh (gatePre x h Wx Wh bx bh 2 (i 0) (i 1)) := by
  rw [val_main_v29_apply, val_main_v28_apply, val_main_v27_apply, slice2]
  exact congrArg Ideal.tanh (pre_apply x h Wx Wh bx bh 2 (i 0) (i 1))

/-- The output gate: the logistic function of pre-activation 3. -/
theorem outputGate (i : S32768x512.Idx) :
    val_main_v37 (F := Ideal) x h Wx bx Wh bh i = Ideal.logistic (gatePre x h Wx Wh bx bh 3 (i 0) (i 1)) := by
  rw [val_main_v37_apply, val_main_v36_apply, val_main_cst_4_apply, val_main_v35_apply, val_main_v34_apply,
    val_main_cst_3_apply, val_main_v33_apply, val_main_v32_apply, val_main_v31_apply, val_main_v30_apply, slice3]
  exact (congrArg (fun z : EReal => Ideal.div (Ideal.ofBits .f32 0x3F800000#32) (Ideal.ofBits .f32 0x3F800000#32 + Ideal.exp (-z)))
    (pre_apply x h Wx Wh bx bh 3 (i 0) (i 1))).trans (logistic_spelled _)

/-- The reference's second result is the new cell state. -/
theorem cell_eq : val_main_v40 (F := Ideal) x h c Wx bx Wh bh = cellNext x h c Wx Wh bx bh := by
  funext i
  rw [val_main_v40_apply, val_main_v38_apply, val_main_v39_apply, inputGate, candidate, forgetGate]
  rfl

/-- The reference's first result is the new hidden state. -/
theorem hidden_eq : val_main_v42 (F := Ideal) x h c Wx bx Wh bh = hiddenNext x h c Wx Wh bx bh := by
  funext i
  rw [val_main_v42_apply, val_main_v41_apply, outputGate, cell_eq]
  rfl

end Cert.RefCell

end
-- ==== Proof.FusedGates.lean ====
/-
  The kernel's fused pre-activation, entry by entry.

  The kernel holds the four gates side by side: a block of 512 batch rows is multiplied by ONE [512, 2048]
  matrix per projection whose column `g·512 + j` is gate `g`'s weight row for hidden unit `j`, and the two
  biases are [2048] rows added to every batch row. At the extended reals a matrix product into a zero
  accumulator is the plain sum over the contracted axis, a change of float format is the identity, and a
  row broadcast reads its one row, so the entry at batch row `p` and column `n` is
      Σₖ X[p, k] · A[k, n] + Σₖ H[p, k] · B[k, n] + u[n] + v[n].

  The [512, 2048] matrix is the stacked weights [4, 512, 512] with the feature axis moved to the front and
  the gate and unit axes merged: its entry `(k, g·512 + j)` is `W[g, j, k]` — row-major, `(k·4 + g)·512 + j`
  is `k·2048 + (g·512 + j)`. The [2048] row is the stacked biases [4, 512] flattened: entry `g·512 + j` is
  `b[g, j]`.
-/
import proofs.«118748_j9320079033013_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelCell

open Cert.KernelIdeal Cert.KernelIdeal.Gen
open Idealize.ShloMosaic Idealize.ShloMosaic.ValueIdx

/-! ## The matrix product's operand indices -/

theorem lhs_rows (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_contr (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_contr (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_cols (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A [512, 512] × [512, 2048] product into the zero accumulator, at row `p` and column `n`: the sum over the
    contracted axis of row `p` of the left factor against column `n` of the right. -/
theorem product_apply (A : FVec Ideal S512x512 .bf16) (B : FVec Ideal S512x2048 .bf16) (p : Fin 512) (n : Fin 2048) :
    matmul dot_S512x512_S512x2048_S512x2048_1_0_0_1_n_n none A B (constant (F := Ideal) S512x2048 .f32 0x00000000#32) (ix2 p n)
      = ∑ k : Fin 512, A (ix2 p k) * B (ix2 k n) := by
  show FloatOps.matmul dot_S512x512_S512x2048_S512x2048_1_0_0_1_n_n none A B (constant (F := Ideal) S512x2048 .f32 0x00000000#32) (ix2 p n) = _
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p n) ((contrEquiv1 dot_S512x512_S512x2048_S512x2048_1_0_0_1_n_n 512 rfl rfl).symm k) = ix2 p k := funext fun a => Fin.ext (by
    match a with
    | ⟨0, _⟩ => exact lhs_rows _ _
    | ⟨1, _⟩ => exact (lhs_contr _ _).trans hk)
  have er : dot_S512x512_S512x2048_S512x2048_1_0_0_1_n_n.rhsIdx (ix2 p n) ((contrEquiv1 dot_S512x512_S512x2048_S512x2048_1_0_0_1_n_n 512 rfl rfl).symm k) = ix2 k n := funext fun a => Fin.ext (by
    match a with
    | ⟨0, _⟩ => exact (rhs_contr _ _).trans hk
    | ⟨1, _⟩ => exact rhs_cols _ _)
  rw [el, er]

/-- A [2048] row, given a leading unit axis and broadcast over 512 batch rows, reads its entry `n` at every row. -/
theorem row_apply (u : FVec Ideal S2048 .f32) (p : Fin 512) (n : Fin 2048) :
    broadcastTo S512x2048 (shapeCast S1x2048 (shapeCast S2048 u shapeCasts_S2048_S2048) shapeCasts_S2048_S1x2048)
        broadcasts_S1x2048_S512x2048 (ix2 p n) = u (ix1 n) := by
  rw [shapeCast_self, broadcastTo_1b_ab_apply, shapeCast_a_1a_apply]

/-- The fused pre-activation block at batch row `p` and column `n`. -/
theorem fused_apply (X H : Vec Ideal S512x512 .f32) (A B : Vec Ideal S512x2048 .bf16) (u v : Vec Ideal S2048 .f32)
    (p : Fin 512) (n : Fin 2048) :
    k0_pay1 X H A B u v (ix2 p n)
      = (∑ k : Fin 512, X (ix2 p k) * A (ix2 k n)) + (∑ k : Fin 512, H (ix2 p k) * B (ix2 k n)) + u (ix1 n) + v (ix1 n) := by
  unfold k0_pay1
  rw [addf_apply, addf_apply, addf_apply, product_apply, product_apply, row_apply, row_apply]
  simp only [shapeCast_self]
  rfl

/-! ## The operands the host prepares -/

/-- The stacked weights with the feature axis first and gate and unit merged, rounded to the narrow format
    (the identity here): entry `(k, g·512 + j)` is `W[g, j, k]`. -/
theorem merged_weights_apply (W : FVec Ideal S4x512x512 .f32) (k : Fin 512) (g : Fin 4) (j : Fin 512) (n : Fin 2048)
    (hn : n.val = g.val * 512 + j.val) :
    (truncf .bf16 (shapeCast S512x2048 (transpose S512x4x512 [2, 0, 1] W transposes_S4x512x512_S512x4x512_2_0_1)
        shapeCasts_S512x4x512_S512x2048) bitsLt_bf16_f32 : FVec Ideal S512x2048 .bf16) (ix2 k n) = W (ix3 g j k) := by
  show shapeCast S512x2048 (transpose S512x4x512 [2, 0, 1] W transposes_S4x512x512_S512x4x512_2_0_1)
      shapeCasts_S512x4x512_S512x2048 (ix2 k n) = _
  rw [shapeCast_apply _ shapeCasts_S512x4x512_S512x2048 (ix2 k n) (ix3 k g j) (by
    rw [Shape.rowMajor_val_three, Shape.rowMajor_val_two]
    show (k.val * 4 + g.val) * 512 + j.val = k.val * 2048 + n.val
    omega)]
  exact transpose_apply [2, 0, 1] W transposes_S4x512x512_S512x4x512_2_0_1 (ix3 k g j) (ix3 g j k) (fun b => match b with
    | ⟨0, _⟩ => rfl
    | ⟨1, _⟩ => rfl
    | ⟨2, _⟩ => rfl)

/-- The stacked biases flattened: entry `g·512 + j` is `b[g, j]`. -/
theorem flat_bias_apply (b : FVec Ideal S4x512 .f32) (g : Fin 4) (j : Fin 512) (n : Fin 2048)
    (hn : n.val = g.val * 512 + j.val) :
    shapeCast S2048 b shapeCasts_S4x512_S2048 (ix1 n) = b (ix2 g j) :=
  shapeCast_apply b shapeCasts_S4x512_S2048 (ix1 n) (ix2 g j) (by
    rw [Shape.rowMajor_val_two, Shape.rowMajor_val_one]
    show g.val * 512 + j.val = n.val
    omega)

end Cert.KernelCell

end
-- ==== Proof.BlockEntry.lean ====
/-
  One entry of what a grid point writes back, as the LSTM cell of `LstmCell`.

  At row `p`, unit `q` of its block a grid point writes a pointwise expression of the fused pre-activation
  block read at the four columns `g·512 + q` — gate `g`'s slice of the 2048 columns: the output gate at
  `q + 1536`, the input gate at `q`, the candidate at `q + 1024`, the forget gate at `q + 512` — and of the old
  cell state at `(p, q)`. Suppose the blocks the point holds are the right pieces of the argument arrays: the
  activation blocks' row `p` is batch row `r`, and column `g·512 + q` of the merged matrices and flattened
  biases carries gate `g`'s weights and bias for unit `q`. Then by `FusedGates` each of those four entries is
  the fused evaluation of its gate at `(r, q)`, which `LstmCell.gatePre_fused` identifies with the
  specification's pre-activation; the pointwise expression around them is the specification's own.
-/
import proofs.«118748_j9320079033013_1_alg».proof.Proof.Gen.KernelIdeal.Value
import proofs.«118748_j9320079033013_1_alg».proof.Proof.LstmCell
import proofs.«118748_j9320079033013_1_alg».proof.Proof.FusedGates

noncomputable section

namespace Cert.KernelCell

open Cert.KernelIdeal Cert.KernelIdeal.Gen Cert.KernelIdeal.Value Cert.LstmCell
open Idealize.ShloMosaic Idealize.ShloMosaic.TcCoe Idealize.ShloMosaic.ValueIdx Idealize.SL.Sem
open Idealize.ShloMosaic.Pipeline (Dat)

/-! ## One entry of a block, from blocks that hold the right rows -/

section entry

variable (X H C : Vec Ideal S512x512 .f32) (A B : Vec Ideal S512x2048 .bf16) (u v : Vec Ideal S2048 .f32)
  (x h c : FVec Ideal S32768x512 .f32) (Wx Wh : FVec Ideal S4x512x512 .f32) (bx bh : FVec Ideal S4x512 .f32)
  (p q : Fin 512) (r : Fin 32768)

/-- If the activation blocks hold batch row `r` at their row `p`, and the merged matrices and flattened biases hold
    gate `g`'s weights and biases for unit `q` at column `n = g·512 + q`, the fused pre-activation at `(p, n)` is the
    specification's pre-activation of gate `g` at `(r, q)`. -/
theorem gate_of_blocks
    (hX : ∀ k : Fin 512, X (ix2 p k) = x (ix2 r k)) (hH : ∀ k : Fin 512, H (ix2 p k) = h (ix2 r k))
    (hA : ∀ (g : Fin 4) (n : Fin 2048), n.val = g.val * 512 + q.val → ∀ k : Fin 512, A (ix2 k n) = Wx (ix3 g q k))
    (hB : ∀ (g : Fin 4) (n : Fin 2048), n.val = g.val * 512 + q.val → ∀ k : Fin 512, B (ix2 k n) = Wh (ix3 g q k))
    (hu : ∀ (g : Fin 4) (n : Fin 2048), n.val = g.val * 512 + q.val → u (ix1 n) = bx (ix2 g q))
    (hv : ∀ (g : Fin 4) (n : Fin 2048), n.val = g.val * 512 + q.val → v (ix1 n) = bh (ix2 g q))
    (g : Fin 4) (n : Fin 2048) (hn : n.val = g.val * 512 + q.val) :
    k0_pay1 X H A B u v (ix2 p n) = gatePre x h Wx Wh bx bh g r q := by
  rw [fused_apply, ← gatePre_fused, hu g n hn, hv g n hn]
  have e1 : (∑ k : Fin 512, X (ix2 p k) * A (ix2 k n)) = ∑ k : Fin 512, x (ix2 r k) * Wx (ix3 g q k) :=
    Finset.sum_congr rfl fun k _ => by rw [hX k, hA g n hn k]
  have e2 : (∑ k : Fin 512, H (ix2 p k) * B (ix2 k n)) = ∑ k : Fin 512, h (ix2 r k) * Wh (ix3 g q k) :=
    Finset.sum_congr rfl fun k _ => by rw [hH k, hB g n hn k]
  rw [e1, e2]

/-- The new cell state's block entry. -/
theorem cell_of_blocks
    (hX : ∀ k : Fin 512, X (ix2 p k) = x (ix2 r k)) (hH : ∀ k : Fin 512, H (ix2 p k) = h (ix2 r k))
    (hC : C (ix2 p q) = c (ix2 r q))
    (hA : ∀ (g : Fin 4) (n : Fin 2048), n.val = g.val * 512 + q.val → ∀ k : Fin 512, A (ix2 k n) = Wx (ix3 g q k))
    (hB : ∀ (g : Fin 4) (n : Fin 2048), n.val = g.val * 512 + q.val → ∀ k : Fin 512, B (ix2 k n) = Wh (ix3 g q k))
    (hu : ∀ (g : Fin 4) (n : Fin 2048), n.val = g.val * 512 + q.val → u (ix1 n) = bx (ix2 g q))
    (hv : ∀ (g : Fin 4) (n : Fin 2048), n.val = g.val * 512 + q.val → v (ix1 n) = bh (ix2 g q)) :
    E8 X H A B u v C (ix2 p q) = cellNext x h c Wx Wh bx bh (ix2 r q) := by
  have hq : q.val < 512 := q.isLt
  have G := gate_of_blocks X H A B u v x h Wx Wh bx bh p q r hX hH hA hB hu hv
  have e0 : ix8_0 (ix2 p q) = ix2 p (⟨q.val, by omega⟩ : Fin 2048) :=
    funext fun a => by match a with | ⟨0, _⟩ => rfl | ⟨1, _⟩ => rfl
  have e1 : ix8_1 (ix2 p q) = ix2 p (⟨q.val + 1024, by omega⟩ : Fin 2048) :=
    funext fun a => by match a with | ⟨0, _⟩ => rfl | ⟨1, _⟩ => rfl
  have e2 : ix8_2 (ix2 p q) = ix2 p (⟨q.val + 512, by omega⟩ : Fin 2048) :=
    funext fun a => by match a with | ⟨0, _⟩ => rfl | ⟨1, _⟩ => rfl
  have e3 : ix8_3 (ix2 p q) = ix2 p q :=
    funext fun a => by match a with | ⟨0, _⟩ => rfl | ⟨1, _⟩ => rfl
  show FloatOps.addf (FloatOps.mulf (FloatOps.logistic (k0_pay1 X H A B u v (ix8_0 (ix2 p q))))
        (FloatOps.tanh (k0_pay1 X H A B u v (ix8_1 (ix2 p q)))))
      (FloatOps.mulf (FloatOps.logistic (k0_pay1 X H A B u v (ix8_2 (ix2 p q)))) (C (ix8_3 (ix2 p q)))) = _
  rw [e0, e1, e2, e3, hC,
    G 0 ⟨q.val, by omega⟩ (by show q.val = 0 * 512 + q.val; omega),
    G 2 ⟨q.val + 1024, by omega⟩ (by show q.val + 1024 = 2 * 512 + q.val; omega),
    G 1 ⟨q.val + 512, by omega⟩ (by show q.val + 512 = 1 * 512 + q.val; omega)]
  rfl

/-- The new hidden state's block entry. -/
theorem hidden_of_blocks
    (hX : ∀ k : Fin 512, X (ix2 p k) = x (ix2 r k)) (hH : ∀ k : Fin 512, H (ix2 p k) = h (ix2 r k))
    (hC : C (ix2 p q) = c (ix2 r q))
    (hA : ∀ (g : Fin 4) (n : Fin 2048), n.val = g.val * 512 + q.val → ∀ k : Fin 512, A (ix2 k n) = Wx (ix3 g q k))
    (hB : ∀ (g : Fin 4) (n : Fin 2048), n.val = g.val * 512 + q.val → ∀ k : Fin 512, B (ix2 k n) = Wh (ix3 g q k))
    (hu : ∀ (g : Fin 4) (n : Fin 2048), n.val = g.val * 512 + q.val → u (ix1 n) = bx (ix2 g q))
    (hv : ∀ (g : Fin 4) (n : Fin 2048), n.val = g.val * 512 + q.val → v (ix1 n) = bh (ix2 g q)) :
    E7 X H A B u v C (ix2 p q) = hiddenNext x h c Wx Wh bx bh (ix2 r q) := by
  have hq : q.val < 512 := q.isLt
  have G := gate_of_blocks X H A B u v x h Wx Wh bx bh p q r hX hH hA hB hu hv
  have e0 : ix7_0 (ix2 p q) = ix2 p (⟨q.val + 1536, by omega⟩ : Fin 2048) :=
    funext fun a => by match a with | ⟨0, _⟩ => rfl | ⟨1, _⟩ => rfl
  have e1 : ix7_1 (ix2 p q) = ix2 p (⟨q.val, by omega⟩ : Fin 2048) :=
    funext fun a => by match a with | ⟨0, _⟩ => rfl | ⟨1, _⟩ => rfl
  have e2 : ix7_2 (ix2 p q) = ix2 p (⟨q.val + 1024, by omega⟩ : Fin 2048) :=
    funext fun a => by match a with | ⟨0, _⟩ => rfl | ⟨1, _⟩ => rfl
  have e3 : ix7_3 (ix2 p q) = ix2 p (⟨q.val + 512, by omega⟩ : Fin 2048) :=
    funext fun a => by match a with | ⟨0, _⟩ => rfl | ⟨1, _⟩ => rfl
  have e4 : ix7_4 (ix2 p q) = ix2 p q :=
    funext fun a => by match a with | ⟨0, _⟩ => rfl | ⟨1, _⟩ => rfl
  show FloatOps.mulf (FloatOps.logistic (k0_pay1 X H A B u v (ix7_0 (ix2 p q))))
      (FloatOps.tanh (FloatOps.addf
        (FloatOps.mulf (FloatOps.logistic (k0_pay1 X H A B u v (ix7_1 (ix2 p q))))
          (FloatOps.tanh (k0_pay1 X H A B u v (ix7_2 (ix2 p q)))))
        (FloatOps.mulf (FloatOps.logistic (k0_pay1 X H A B u v (ix7_3 (ix2 p q)))) (C (ix7_4 (ix2 p q)))))) = _
  rw [e0, e1, e2, e3, e4, hC,
    G 3 ⟨q.val + 1536, by omega⟩ (by show q.val + 1536 = 3 * 512 + q.val; omega),
    G 0 ⟨q.val, by omega⟩ (by show q.val = 0 * 512 + q.val; omega),
    G 2 ⟨q.val + 1024, by omega⟩ (by show q.val + 1024 = 2 * 512 + q.val; omega),
    G 1 ⟨q.val + 512, by omega⟩ (by show q.val + 512 = 1 * 512 + q.val; omega)]
  rfl

end entry

end Cert.KernelCell

end
-- ==== Proof.CellBlocks.lean ====
/-
  The kernel's two result arrays are the LSTM cell of `LstmCell`.

  The grid has 64 points; point `t` works on batch rows `t·512 … t·512 + 511`: its blocks of the two
  activation arrays and of the old cell state are those rows (block index `(t, 0)`, a block's coordinate being
  index × size + the coordinate inside it), and it sees the two merged weight matrices and the two flattened
  biases whole (block index 0 at every point). Those four operands are written by the host before the kernel
  runs: the stacked weights transposed to feature-major, merged and rounded, the stacked biases flattened.
  With `BlockEntry` this makes what point `t` writes back block `t` of the specification's new hidden state
  and new cell state; batch row `r` lies in the block of point `r / 512`, so the 64 blocks tile each result
  array and the arrays end holding the specification's.
-/
import proofs.«118748_j9320079033013_1_alg».proof.Proof.Gen.KernelIdeal.Value
import proofs.«118748_j9320079033013_1_alg».proof.Proof.LstmCell
import proofs.«118748_j9320079033013_1_alg».proof.Proof.FusedGates
import proofs.«118748_j9320079033013_1_alg».proof.Proof.BlockEntry
import Idealize.ShloMosaic.Lib.StableHlo.Run

noncomputable section

namespace Cert.KernelCell

open Cert.KernelIdeal Cert.KernelIdeal.Gen Cert.KernelIdeal.Value Cert.LstmCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays, at their literal types -/

abbrev xArr (c : Dev nD) : FVec Ideal S32768x512 .f32 := m ((c : Thread nD τ).loc main_arg0)
abbrev hArr (c : Dev nD) : FVec Ideal S32768x512 .f32 := m ((c : Thread nD τ).loc main_arg1)
abbrev cArr (c : Dev nD) : FVec Ideal S32768x512 .f32 := m ((c : Thread nD τ).loc main_arg2)
abbrev wxArr (c : Dev nD) : FVec Ideal S4x512x512 .f32 := m ((c : Thread nD τ).loc main_arg3)
abbrev bxArr (c : Dev nD) : FVec Ideal S4x512 .f32 := m ((c : Thread nD τ).loc main_arg4)
abbrev whArr (c : Dev nD) : FVec Ideal S4x512x512 .f32 := m ((c : Thread nD τ).loc main_arg5)
abbrev bhArr (c : Dev nD) : FVec Ideal S4x512 .f32 := m ((c : Thread nD τ).loc main_arg6)

theorem zero2 : (![0, 0] : Fin 2 → Nat) = fun _ => 0 := funext fun a => by fin_cases a <;> rfl
theorem zero1 : (![0] : Fin 1 → Nat) = fun _ => 0 := funext fun a => by fin_cases a <;> rfl

theorem points : cfg0.N = 64 := N_0

/-- The printed index maps over the grid: the row-blocked windows sit at block `(t, 0)`, the whole ones at 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## What the host wrote before the kernel ran -/

theorem merged_wx (c : Dev nD) : (V m c main_v2 : S512x2048.Idx → EReal) =
    (truncf .bf16 (shapeCast S512x2048 (transpose S512x4x512 [2, 0, 1] (wxArr m c) transposes_S4x512x512_S512x4x512_2_0_1)
      shapeCasts_S512x4x512_S512x2048) bitsLt_bf16_f32 : FVec Ideal S512x2048 .bf16) := by
  dsimp only [V, hostOps0]; after_results; rfl

theorem merged_wh (c : Dev nD) : (V m c main_v5 : S512x2048.Idx → EReal) =
    (truncf .bf16 (shapeCast S512x2048 (transpose S512x4x512 [2, 0, 1] (whArr m c) transposes_S4x512x512_S512x4x512_2_0_1)
      shapeCasts_S512x4x512_S512x2048) bitsLt_bf16_f32 : FVec Ideal S512x2048 .bf16) := by
  dsimp only [V, hostOps0]; after_results; rfl

theorem flat_bx (c : Dev nD) : (V m c main_v6 : S2048.Idx → EReal) = shapeCast S2048 (bxArr m c) shapeCasts_S4x512_S2048 := by
  dsimp only [V, hostOps0]; after_results; rfl

theorem flat_bh (c : Dev nD) : (V m c main_v7 : S2048.Idx → EReal) = shapeCast S2048 (bhArr m c) shapeCasts_S4x512_S2048 := by
  dsimp only [V, hostOps0]; after_results; rfl

/-! ## The blocks a point holds -/

/-- Row `p` of point `t`'s activation block is batch row `t·512 + p`. -/
theorem x_rows (c : Dev nD) (t : Fin cfg0.N) (p k : Fin 512) (r : Fin 32768) (hr : r.val = t.val * 512 + p.val) :
    iblk m c 0 t (ix2 p k) = xArr m c (ix2 r k) := by
  obtain ⟨e0, e1, -⟩ := block_index t
  show V m c main_arg0 (((cfg0.win 0).blk t).view.emb (ix2 p k)) = _
  rw [V_main_arg0]
  refine congrArg (xArr m c) (funext fun a => Fin.ext ?_)
  match a with
  | ⟨0, _⟩ => show win0_0.index t (0 : Fin 2) * 512 + 1 * p.val = r.val; omega
  | ⟨1, _⟩ => show win0_0.index t (1 : Fin 2) * 512 + 1 * k.val = k.val; omega

theorem h_rows (c : Dev nD) (t : Fin cfg0.N) (p k : Fin 512) (r : Fin 32768) (hr : r.val = t.val * 512 + p.val) :
    iblk m c 1 t (ix2 p k) = hArr m c (ix2 r k) := by
  obtain ⟨-, -, e0, e1, -⟩ := block_index t
  show V m c main_arg1 (((cfg0.win 1).blk t).view.emb (ix2 p k)) = _
  rw [V_main_arg1]
  refine congrArg (hArr m c) (funext fun a => Fin.ext ?_)
  match a with
  | ⟨0, _⟩ => show win0_1.index t (0 : Fin 2) * 512 + 1 * p.val = r.val; omega
  | ⟨1, _⟩ => show win0_1.index t (1 : Fin 2) * 512 + 1 * k.val = k.val; omega

theorem c_rows (c : Dev nD) (t : Fin cfg0.N) (p k : Fin 512) (r : Fin 32768) (hr : r.val = t.val * 512 + p.val) :
    iblk m c 2 t (ix2 p k) = cArr m c (ix2 r k) := by
  obtain ⟨-, -, -, -, e0, e1, -⟩ := block_index t
  show V m c main_arg2 (((cfg0.win 2).blk t).view.emb (ix2 p k)) = _
  rw [V_main_arg2]
  refine congrArg (cArr m c) (funext fun a => Fin.ext ?_)
  match a with
  | ⟨0, _⟩ => show win0_2.index t (0 : Fin 2) * 512 + 1 * p.val = r.val; omega
  | ⟨1, _⟩ => show win0_2.index t (1 : Fin 2) * 512 + 1 * k.val = k.val; omega

/-- Every point sees the merged input weights whole: column `g·512 + j` is gate `g`'s row for unit `j`. -/
theorem wx_cols (c : Dev nD) (t : Fin cfg0.N) (k : Fin 512) (g : Fin 4) (j : Fin 512) (n : Fin 2048)
    (hn : n.val = g.val * 512 + j.val) : iblk m c 3 t (ix2 k n) = wxArr m c (ix3 g j k) := by
  obtain ⟨-, -, -, -, -, -, e0, e1, -⟩ := block_index t
  have e : ((cfg0.win 3).blk t).view.emb (ix2 k n) = ix2 k n := funext fun a => Fin.ext (by
    match a with
    | ⟨0, _⟩ => show win0_3.index t (0 : Fin 2) * 512 + 1 * k.val = k.val; omega
    | ⟨1, _⟩ => show win0_3.index t (1 : Fin 2) * 2048 + 1 * n.val = n.val; omega)
  show (V m c main_v2 : S512x2048.Idx → EReal) (((cfg0.win 3).blk t).view.emb (ix2 k n)) = _
  rw [e, merged_wx]
  exact merged_weights_apply (wxArr m c) k g j n hn

theorem wh_cols (c : Dev nD) (t : Fin cfg0.N) (k : Fin 512) (g : Fin 4) (j : Fin 512) (n : Fin 2048)
    (hn : n.val = g.val * 512 + j.val) : iblk m c 4 t (ix2 k n) = whArr m c (ix3 g j k) := by
  obtain ⟨-, -, -, -, -, -, -, -, e0, e1, -⟩ := block_index t
  have e : ((cfg0.win 4).blk t).view.emb (ix2 k n) = ix2 k n := funext fun a => Fin.ext (by
    match a with
    | ⟨0, _⟩ => show win0_4.index t (0 : Fin 2) * 512 + 1 * k.val = k.val; omega
    | ⟨1, _⟩ => show win0_4.index t (1 : Fin 2) * 2048 + 1 * n.val = n.val; omega)
  show (V m c main_v5 : S512x2048.Idx → EReal) (((cfg0.win 4).blk t).view.emb (ix2 k n)) = _
  rw [e, merged_wh]
  exact merged_weights_apply (whArr m c) k g j n hn

/-- Every point sees the flattened input bias whole: entry `g·512 + j` is gate `g`'s bias for unit `j`. -/
theorem bx_cols (c : Dev nD) (t : Fin cfg0.N) (g : Fin 4) (j : Fin 512) (n : Fin 2048)
    (hn : n.val = g.val * 512 + j.val) : iblk m c 5 t (ix1 n) = bxArr m c (ix2 g j) := by
  obtain ⟨-, -, -, -, -, -, -, -, -, -, e0, -⟩ := block_index t
  have e : ((cfg0.win 5).blk t).view.emb (ix1 n) = ix1 n := funext fun a => Fin.ext (by
    match a with
    | ⟨0, _⟩ => show win0_5.index t (0 : Fin 1) * 2048 + 1 * n.val = n.val; omega)
  show (V m c main_v6 : S2048.Idx → EReal) (((cfg0.win 5).blk t).view.emb (ix1 n)) = _
  rw [e, flat_bx]
  exact flat_bias_apply (bxArr m c) g j n hn

theorem bh_cols (c : Dev nD) (t : Fin cfg0.N) (g : Fin 4) (j : Fin 512) (n : Fin 2048)
    (hn : n.val = g.val * 512 + j.val) : iblk m c 6 t (ix1 n) = bhArr m c (ix2 g j) := by
  obtain ⟨-, -, -, -, -, -, -, -, -, -, -, e0, -⟩ := block_index t
  have e : ((cfg0.win 6).blk t).view.emb (ix1 n) = ix1 n := funext fun a => Fin.ext (by
    match a with
    | ⟨0, _⟩ => show win0_6.index t (0 : Fin 1) * 2048 + 1 * n.val = n.val; omega)
  show (V m c main_v7 : S2048.Idx → EReal) (((cfg0.win 6).blk t).view.emb (ix1 n)) = _
  rw [e, flat_bh]
  exact flat_bias_apply (bhArr m c) g j n hn

/-! ## What a point writes back -/

/-- Point `t` writes block `t` of the new hidden state. -/
theorem hidden_flushed (c : Dev nD) (t : Fin cfg0.N) :
    (dats m 0 c).flushed 7 t = ((cfg0.win 7).blk t).view.read (Elt Ideal)
      (hiddenNext (xArr m c) (hArr m c) (cArr m c) (wxArr m c) (whArr m c) (bxArr m c) (bhArr m c)) := by
  have ht : t.val < 64 := points ▸ t.isLt
  obtain ⟨-, -, -, -, -, -, -, -, -, -, -, -, e0, e1, -⟩ := block_index t
  rw [flushed7]
  unfold out0_7
  simp only [View.ld_unit_zero (S := S512x512) zero2, View.ld_unit_zero (S := S512x2048) zero2, View.ld_unit_zero (S := S2048) zero1]
  funext y
  obtain ⟨p, q, rfl⟩ : ∃ (p q : Fin 512), y = ix2 p q := ⟨y 0, y 1, eq_ix2 y⟩
  have hp : p.val < 512 := p.isLt
  have hr : t.val * 512 + p.val < 32768 := by omega
  have eo : ((cfg0.win 7).blk t).view.emb (ix2 p q) = ix2 (⟨t.val * 512 + p.val, hr⟩ : Fin 32768) q := funext fun a => Fin.ext (by
    match a with
    | ⟨0, _⟩ => show win0_7.index t (0 : Fin 2) * 512 + 1 * p.val = t.val * 512 + p.val; omega
    | ⟨1, _⟩ => show win0_7.index t (1 : Fin 2) * 512 + 1 * q.val = q.val; omega)
  show (View.canon [⟨r0_0, k0_pay3 (iblk m c 0 t) (iblk m c 1 t) (iblk m c 3 t) (iblk m c 4 t) (iblk m c 5 t) (iblk m c 6 t) (iblk m c 2 t)⟩] : Vec Ideal S512x512 .f32) (ix2 p q)
    = hiddenNext (xArr m c) (hArr m c) (cArr m c) (wxArr m c) (whArr m c) (bxArr m c) (bhArr m c) (((cfg0.win 7).blk t).view.emb (ix2 p q))
  rw [eo]
  refine (canon7_eq (iblk m c 0 t) (iblk m c 1 t) (iblk m c 3 t) (iblk m c 4 t) (iblk m c 5 t) (iblk m c 6 t) (iblk m c 2 t) (ix2 p q)).trans ?_
  exact hidden_of_blocks (iblk m c 0 t) (iblk m c 1 t) (iblk m c 2 t) (iblk m c 3 t) (iblk m c 4 t) (iblk m c 5 t) (iblk m c 6 t)
    (xArr m c) (hArr m c) (cArr m c) (wxArr m c) (whArr m c) (bxArr m c) (bhArr m c) p q ⟨t.val * 512 + p.val, hr⟩
    (fun k => x_rows m c t p k _ rfl) (fun k => h_rows m c t p k _ rfl) (c_rows m c t p q _ rfl)
    (fun g n hn k => wx_cols m c t k g q n hn) (fun g n hn k => wh_cols m c t k g q n hn)
    (fun g n hn => bx_cols m c t g q n hn) (fun g n hn => bh_cols m c t g q n hn)

/-- Point `t` writes block `t` of the new cell state. -/
theorem cell_flushed (c : Dev nD) (t : Fin cfg0.N) :
    (dats m 0 c).flushed 8 t = ((cfg0.win 8).blk t).view.read (Elt Ideal)
      (cellNext (xArr m c) (hArr m c) (cArr m c) (wxArr m c) (whArr m c) (bxArr m c) (bhArr m c)) := by
  have ht : t.val < 64 := points ▸ t.isLt
  obtain ⟨-, -, -, -, -, -, -, -, -, -, -, -, -, -, e0, e1⟩ := block_index t
  rw [flushed8]
  unfold out0_8
  simp only [View.ld_unit_zero (S := S512x512) zero2, View.ld_unit_zero (S := S512x2048) zero2, View.ld_unit_zero (S := S2048) zero1]
  funext y
  obtain ⟨p, q, rfl⟩ : ∃ (p q : Fin 512), y = ix2 p q := ⟨y 0, y 1, eq_ix2 y⟩
  have hp : p.val < 512 := p.isLt
  have hr : t.val * 512 + p.val < 32768 := by omega
  have eo : ((cfg0.win 8).blk t).view.emb (ix2 p q) = ix2 (⟨t.val * 512 + p.val, hr⟩ : Fin 32768) q := funext fun a => Fin.ext (by
    match a with
    | ⟨0, _⟩ => show win0_8.index t (0 : Fin 2) * 512 + 1 * p.val = t.val * 512 + p.val; omega
    | ⟨1, _⟩ => show win0_8.index t (1 : Fin 2) * 512 + 1 * q.val = q.val; omega)
  show (View.canon [⟨r0_0, k0_pay2 (iblk m c 0 t) (iblk m c 1 t) (iblk m c 3 t) (iblk m c 4 t) (iblk m c 5 t) (iblk m c 6 t) (iblk m c 2 t)⟩] : Vec Ideal S512x512 .f32) (ix2 p q)
    = cellNext (xArr m c) (hArr m c) (cArr m c) (wxArr m c) (whArr m c) (bxArr m c) (bhArr m c) (((cfg0.win 8).blk t).view.emb (ix2 p q))
  rw [eo]
  refine (canon8_eq (iblk m c 0 t) (iblk m c 1 t) (iblk m c 3 t) (iblk m c 4 t) (iblk m c 5 t) (iblk m c 6 t) (iblk m c 2 t) (ix2 p q)).trans ?_
  exact cell_of_blocks (iblk m c 0 t) (iblk m c 1 t) (iblk m c 2 t) (iblk m c 3 t) (iblk m c 4 t) (iblk m c 5 t) (iblk m c 6 t)
    (xArr m c) (hArr m c) (cArr m c) (wxArr m c) (whArr m c) (bxArr m c) (bhArr m c) p q ⟨t.val * 512 + p.val, hr⟩
    (fun k => x_rows m c t p k _ rfl) (fun k => h_rows m c t p k _ rfl) (c_rows m c t p q _ rfl)
    (fun g n hn k => wx_cols m c t k g q n hn) (fun g n hn k => wh_cols m c t k g q n hn)
    (fun g n hn => bx_cols m c t g q n hn) (fun g n hn => bh_cols m c t g q n hn)

/-! ## The blocks tile the result arrays -/

theorem hidden_block_mem (t : Fin cfg0.N) (i : S32768x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v8_0).slice (win0_7.rect t)).set ↔ _
  rw [View.set_slice_whole, Rect.mem_set_unit]
  exact Iff.rfl

theorem cell_block_mem (t : Fin cfg0.N) (i : S32768x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v8_1).slice (win0_8.rect t)).set ↔ _
  rw [View.set_slice_whole, Rect.mem_set_unit]
  exact Iff.rfl

/-- Batch row `r` is in the block of point `r / 512`. -/
theorem hidden_cover (i : S32768x512.Idx) : ∃ t : Fin cfg0.N, (cfg0.win 7).flush t = true ∧ i ∈ ((cfg0.win 7).blk t).view.set := by
  have h0 : (i 0).val < 32768 := (i 0).isLt
  have h1 : (i 1).val < 512 := (i 1).isLt
  have hN : (i 0).val / 512 < cfg0.N := by rw [points]; omega
  refine ⟨⟨(i 0).val / 512, hN⟩, flush0_7 _, ?_⟩
  obtain ⟨-, -, -, -, -, -, -, -, -, -, -, -, e0, e1, -⟩ := block_index ⟨(i 0).val / 512, hN⟩
  rw [hidden_block_mem]
  intro a
  match a with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hN⟩ (1 : Fin 2) * 512 ≤ (i 1).val ∧ (i 1).val < win0_7.index ⟨(i 0).val / 512, hN⟩ (1 : Fin 2) * 512 + 512
    rw [e1]; omega

theorem cell_cover (i : S32768x512.Idx) : ∃ t : Fin cfg0.N, (cfg0.win 8).flush t = true ∧ i ∈ ((cfg0.win 8).blk t).view.set := by
  have h0 : (i 0).val < 32768 := (i 0).isLt
  have h1 : (i 1).val < 512 := (i 1).isLt
  have hN : (i 0).val / 512 < cfg0.N := by rw [points]; omega
  refine ⟨⟨(i 0).val / 512, hN⟩, flush0_8 _, ?_⟩
  obtain ⟨-, -, -, -, -, -, -, -, -, -, -, -, -, -, e0, e1⟩ := block_index ⟨(i 0).val / 512, hN⟩
  rw [cell_block_mem]
  intro a
  match a with
  | ⟨0, _⟩ =>
    show win0_8.index ⟨(i 0).val / 512, hN⟩ (0 : Fin 2) * 512 ≤ (i 0).val ∧ (i 0).val < win0_8.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_8.index ⟨(i 0).val / 512, hN⟩ (1 : Fin 2) * 512 ≤ (i 1).val ∧ (i 1).val < win0_8.index ⟨(i 0).val / 512, hN⟩ (1 : Fin 2) * 512 + 512
    rw [e1]; omega

/-! ## The arrays after the run -/

theorem hidden_final (c : Dev nD) : (dats m 0 c).arrAt 7 cfg0.N
    = hiddenNext (xArr m c) (hArr m c) (cArr m c) (wxArr m c) (whArr m c) (bxArr m c) (bhArr m c) :=
  (dats m 0 c).arrAt_eq_of_cover 7 _ (fun t _ => hidden_flushed m c t) hidden_cover

theorem cell_final (c : Dev nD) : (dats m 0 c).arrAt 8 cfg0.N
    = cellNext (xArr m c) (hArr m c) (cArr m c) (wxArr m c) (whArr m c) (bxArr m c) (bhArr m c) :=
  (dats m 0 c).arrAt_eq_of_cover 8 _ (fun t _ => cell_flushed m c t) cell_cover

/-- The kernel's run: the two result arrays end at the specification's new hidden state and new cell state of
    the argument arrays, which are left as they were. -/
theorem run : θ_run defs (onTc (τ := τ) (main (F := Ideal))) ⟨m, fun _ => 0, ρ⟩ fun r => ∀ c : Dev nD,
      r.2.mem ((c : Thread nD τ).loc main_v8_0) = hiddenNext (xArr m c) (hArr m c) (cArr m c) (wxArr m c) (whArr m c) (bxArr m c) (bhArr m c)
      ∧ r.2.mem ((c : Thread nD τ).loc main_v8_1) = cellNext (xArr m c) (hArr m c) (cArr m c) (wxArr m c) (whArr m c) (bxArr m c) (bhArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (run_blocks m ρ)

end Cert.KernelCell

end
-- ==== Proof.lean ====
/-
  A single step of an LSTM cell on 32768 batch rows of 512 features: a Pallas kernel against its jnp reference,
  equal over the extended reals.

  Both programs compute, for batch row `b`, hidden unit `j` and the four gates `g`,
      z g b j = Σₖ Wx[g, j, k] · x[b, k] + bx[g, j] + Σₖ Wh[g, j, k] · h[b, k] + bh[g, j],
      c' = σ(z 0) · tanh(z 2) + σ(z 1) · c,      h' = σ(z 3) · tanh(c'),
  and return `(h', c')` (`LstmCell`). The reference forms `z` as two einsums and two broadcast biases and spells
  the logistic function out as 1 / (1 + e^(-z)) (`RefCell`). The kernel tiles the batch rows in 64 blocks of 512,
  multiplies each block by the weights merged into one [512, 2048] matrix per projection (prepared by the host:
  transposed, reshaped, rounded to a narrower format, which is the identity on the extended reals), adds both
  projections before either bias, and slices the 2048 columns into the four gates (`FusedGates`, `BlockEntry`,
  `CellBlocks`). The two evaluations of `z` differ by the order of the factors in each product and by the order of
  two summands: commutativity and associativity alone, so nothing is asked of the inputs and the precondition is
  never opened.

  The kernel's two frames are the generated ones; the reference's is its generated run with the results dropped;
  the idealization rewrote nothing, so `preserves` is `True`.
-/
import proofs.«118748_j9320079033013_1_alg».proof.Defs
import proofs.«118748_j9320079033013_1_alg».proof.Proof.Gen.Kernel
import proofs.«118748_j9320079033013_1_alg».proof.Proof.Gen.Kernel.Skeleton
import proofs.«118748_j9320079033013_1_alg».proof.Proof.Gen.Kernel.Launch
import proofs.«118748_j9320079033013_1_alg».proof.Proof.Gen.Kernel.Points
import proofs.«118748_j9320079033013_1_alg».proof.Proof.Gen.Kernel.Frame
import proofs.«118748_j9320079033013_1_alg».proof.Proof.Gen.KernelIdeal
import proofs.«118748_j9320079033013_1_alg».proof.Proof.Gen.KernelIdeal.Skeleton
import proofs.«118748_j9320079033013_1_alg».proof.Proof.Gen.KernelIdeal.Launch
import proofs.«118748_j9320079033013_1_alg».proof.Proof.Gen.KernelIdeal.Points
import proofs.«118748_j9320079033013_1_alg».proof.Proof.Gen.KernelIdeal.Frame
import proofs.«118748_j9320079033013_1_alg».proof.Proof.Gen.ReferenceIdeal
import proofs.«118748_j9320079033013_1_alg».proof.Proof.Gen.Pre_finite_inputs
import proofs.«118748_j9320079033013_1_alg».proof.Proof.Gen.KernelIdeal.Value
import proofs.«118748_j9320079033013_1_alg».proof.Proof.Gen.ReferenceIdeal.Run
import proofs.«118748_j9320079033013_1_alg».proof.Proof.Gen.ReferenceIdeal.Read
import proofs.«118748_j9320079033013_1_alg».proof.Proof.LstmCell
import proofs.«118748_j9320079033013_1_alg».proof.Proof.RefCell
import proofs.«118748_j9320079033013_1_alg».proof.Proof.CellBlocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the seven arguments, the kernel's result arrays and the reference's both end
    at the specification's new hidden state and new cell state of those arguments. -/
theorem algebraic : Cert.algebraic_KernelIdeal_ReferenceIdeal := by
  intro m ρ m' ρ' _ hagree
  refine ⟨_, _, Cert.KernelCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v42_eq, Cert.RefCell.hidden_eq, a0, a1, a2, a3, a4, a5, a6]
  · obtain ⟨a0, a1, a2, a3, a4, a5, a6⟩ := hagree c
    rw [Cert.ReferenceIdeal.Read.val_main_v40_eq, Cert.RefCell.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
